-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S100000x128 .f32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩
abbrev S4000 : Shape := ⟨1, ![4000]⟩
abbrev S4000x1 : Shape := ⟨2, ![4000, 1]⟩

abbrev nBuf : Space → Nat
  | .hbm => 75
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S2x1600000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S1x128, .f32⟩
  | .hbm, ⟨71, _⟩ => ⟨S100000x128, .f32⟩
  | .hbm, ⟨72, _⟩ => ⟨S1x128, .f32⟩
  | .hbm, ⟨73, _⟩ => ⟨S1x128, .f32⟩
  | .hbm, ⟨74, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S128_S1x128 : S128.ShapeCasts S1x128
  shapeCasts_S4000x128_S4000x128 : S4000x128.ShapeCasts S4000x128
  reduces_S4000x128_S4000 : S4000x128.Reduces [1] S4000
  shapeCasts_S4000_S4000x1 : S4000.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .f32 = 32 ∨ (Rect.block (s := S100000x128) S4000x128.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S2x1600000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000, .f32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x1, .f32⟩
  | .hbm, ⟨89, _⟩ => ⟨S100000x1, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000, .f32⟩
  | .hbm, ⟨101, _⟩ => ⟨S100000x1, .f32⟩
  | .hbm, ⟨102, _⟩ => ⟨S_, .f32⟩
  | .hbm, ⟨103, _⟩ => ⟨S100000x1, .f32⟩
  | .hbm, ⟨104, _⟩ => ⟨S100000x1, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000, .f32⟩
  | .hbm, ⟨110, _⟩ => ⟨S100000x1, .f32⟩
  | .hbm, ⟨111, _⟩ => ⟨S_, .f32⟩
  | .hbm, ⟨112, _⟩ => ⟨S100000x1, .f32⟩
  | .hbm, ⟨113, _⟩ => ⟨S100000x1, .f32⟩
  | .hbm, ⟨114, _⟩ => ⟨S100000x128, .f32⟩
  | .hbm, ⟨115, _⟩ => ⟨S100000x128, .f32⟩
  | .hbm, ⟨116, _⟩ => ⟨S_, .f32⟩
  | .hbm, ⟨117, _⟩ => ⟨S100000x1, .f32⟩
  | .hbm, ⟨118, _⟩ => ⟨S100000x1, .f32⟩
  | .hbm, ⟨119, _⟩ => ⟨S100000x1, .f32⟩
  | .hbm, ⟨120, _⟩ => ⟨S100000x128, .f32⟩
  | .hbm, ⟨121, _⟩ => ⟨S100000x128, .f32⟩
  | .hbm, ⟨122, _⟩ => ⟨S1x128, .f32⟩
  | .hbm, ⟨123, _⟩ => ⟨S100000x128, .f32⟩
  | .hbm, ⟨124, _⟩ => ⟨S100000x128, .f32⟩
  | .hbm, ⟨125, _⟩ => ⟨S1x128, .f32⟩
  | .hbm, ⟨126, _⟩ => ⟨S100000x128, .f32⟩
  | .hbm, ⟨127, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_18 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Fold.lean ====
/-
  Reading the last boundary's contents at the two results.

  The buffer contents at each boundary of the kernel program are a fold from the launch memory: a host stretch
  applies its operations, a region replaces its own arrays by what its write-backs leave and keeps every other
  buffer.  Read at a result array the fold stops at the region that writes it; read at an operand of that region
  it walks on, through the stretches and regions that do not write the operand, to the operation that made it or
  to the launch memory.
-/
import proofs.«181837_j32315333935196_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem
open Idealize.ShloMosaic.Pipeline (Dat Cfg Window)

variable {F : FTy → Type} [FloatOps F]
variable (m : (ℓ : Loc nD τ sig) → Buf (Elt F) ℓ) (ρ : Dev nD → PrngReg)

/-! ## The second result: region 2's output array -/

theorem W8_v52 (c : Dev nD) : W8 m ρ c (Proc.devRef .tc main_v52) = (dat2 (V7 m ρ) c).arrAt 4 cfg2.N :=
  W8_arr m ρ c 4

/-- Region 2 finds its row-blocked operand as launched. -/
theorem V7_arg1 (c : Dev nD) : V7 m ρ c main_arg1 = m ((c : Thread nD τ).loc main_arg1) :=
  ((W8_arr m ρ c 0).trans (((dat2 (V7 m ρ) c).arrAt_in 0 rfl _).trans (A_eq2 (V7 m ρ) c 0))).symm.trans (W8_main_arg1 m ρ c)

/-- Region 2 finds the weight as launched. -/
theorem V7_arg2 (c : Dev nD) : V7 m ρ c main_arg2 = m ((c : Thread nD τ).loc main_arg2) :=
  ((W8_arr m ρ c 1).trans (((dat2 (V7 m ρ) c).arrAt_in 1 rfl _).trans (A_eq2 (V7 m ρ) c 1))).symm.trans (W8_main_arg2 m ρ c)

/-! ## Arguments no stretch and no region writes, at the boundaries where they are read -/

/-- The proof that a literal stretch writes none of a given buffer: every operation's written buffer is another. -/
syntax "unwritten " ident : term
macro_rules
  | `(unwritten $ops) => `(List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Through the first three host stretches a buffer none of them writes keeps its launch contents. -/
theorem W3_keep (c : Dev nD) (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes) :
    W3 m ρ c (Proc.devRef .tc b) = m ((c : Thread nD τ).loc b) :=
  calc W3 m ρ c (Proc.devRef .tc b)
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

theorem W3_arg0 (c : Dev nD) : W3 m ρ c (Proc.devRef .tc main_arg0) = m ((c : Thread nD τ).loc main_arg0) :=
  W3_keep m ρ c main_arg0 (unwritten hostOps0) (unwritten hostOps0_1) (unwritten hostOps0_2)

theorem W3_arg2 (c : Dev nD) : W3 m ρ c (Proc.devRef .tc main_arg2) = m ((c : Thread nD τ).loc main_arg2) :=
  W3_keep m ρ c main_arg2 (unwritten hostOps0) (unwritten hostOps0_1) (unwritten hostOps0_2)

theorem W3_arg3 (c : Dev nD) : W3 m ρ c (Proc.devRef .tc main_arg3) = m ((c : Thread nD τ).loc main_arg3) :=
  W3_keep m ρ c main_arg3 (unwritten hostOps0) (unwritten hostOps0_1) (unwritten hostOps0_2)

theorem W3_arg4 (c : Dev nD) : W3 m ρ c (Proc.devRef .tc main_arg4) = m ((c : Thread nD τ).loc main_arg4) :=
  W3_keep m ρ c main_arg4 (unwritten hostOps0) (unwritten hostOps0_1) (unwritten hostOps0_2)

theorem W3_arg5 (c : Dev nD) : W3 m ρ c (Proc.devRef .tc main_arg5) = m ((c : Thread nD τ).loc main_arg5) :=
  W3_keep m ρ c main_arg5 (unwritten hostOps0) (unwritten hostOps0_1) (unwritten hostOps0_2)

theorem W3_arg6 (c : Dev nD) : W3 m ρ c (Proc.devRef .tc main_arg6) = m ((c : Thread nD τ).loc main_arg6) :=
  W3_keep m ρ c main_arg6 (unwritten hostOps0) (unwritten hostOps0_1) (unwritten hostOps0_2)

theorem W3_arg7 (c : Dev nD) : W3 m ρ c (Proc.devRef .tc main_arg7) = m ((c : Thread nD τ).loc main_arg7) :=
  W3_keep m ρ c main_arg7 (unwritten hostOps0) (unwritten hostOps0_1) (unwritten hostOps0_2)

theorem W3_arg8 (c : Dev nD) : W3 m ρ c (Proc.devRef .tc main_arg8) = m ((c : Thread nD τ).loc main_arg8) :=
  W3_keep m ρ c main_arg8 (unwritten hostOps0) (unwritten hostOps0_1) (unwritten hostOps0_2)

/-- Region 0 leaves it alone: it is none of that region's arrays. -/
theorem W4_arg3 (c : Dev nD) : W4 m ρ c (Proc.devRef .tc main_arg3) = m ((c : Thread nD τ).loc main_arg3) :=
  (W4_of_ne m ρ c main_arg3 (by decide)).trans (W3_arg3 m ρ c)

/-- Region 0 leaves it alone: it is none of that region's arrays. -/
theorem W4_arg4 (c : Dev nD) : W4 m ρ c (Proc.devRef .tc main_arg4) = m ((c : Thread nD τ).loc main_arg4) :=
  (W4_of_ne m ρ c main_arg4 (by decide)).trans (W3_arg4 m ρ c)

/-- Region 0 leaves it alone: it is none of that region's arrays. -/
theorem W4_arg5 (c : Dev nD) : W4 m ρ c (Proc.devRef .tc main_arg5) = m ((c : Thread nD τ).loc main_arg5) :=
  (W4_of_ne m ρ c main_arg5 (by decide)).trans (W3_arg5 m ρ c)

/-- Region 0 leaves it alone: it is none of that region's arrays. -/
theorem W4_arg6 (c : Dev nD) : W4 m ρ c (Proc.devRef .tc main_arg6) = m ((c : Thread nD τ).loc main_arg6) :=
  (W4_of_ne m ρ c main_arg6 (by decide)).trans (W3_arg6 m ρ c)

/-- Region 0 leaves it alone: it is none of that region's arrays. -/
theorem W4_arg7 (c : Dev nD) : W4 m ρ c (Proc.devRef .tc main_arg7) = m ((c : Thread nD τ).loc main_arg7) :=
  (W4_of_ne m ρ c main_arg7 (by decide)).trans (W3_arg7 m ρ c)

/-- Nor does the second host stretch or region 1 write it. -/
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem _ _ (unwritten hostOps1)
    _ = m ((c : Thread nD τ).loc main_arg6) := W4_arg6 m ρ c

/-- Nor does the second host stretch or region 1 write it. -/
theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem _ _ (unwritten hostOps1)
    _ = m ((c : Thread nD τ).loc main_arg7) := W4_arg7 m ρ c

/-! ## What the regions find in their small operands -/

/-- Region 0 finds its row-blocked operand and the weight as launched. -/
theorem V3_arg0 (c : Dev nD) : V3 m ρ c main_arg0 = m ((c : Thread nD τ).loc main_arg0) := W3_arg0 m ρ c
theorem V3_arg2 (c : Dev nD) : V3 m ρ c main_arg2 = m ((c : Thread nD τ).loc main_arg2) := W3_arg2 m ρ c

/-- Region 1 finds, as its scale row, the first scale argument laid out as one row of 128. -/
theorem V5_v47 (c : Dev nD) :
    V5 m ρ c main_v47 = shapeCast S1x128 (m ((c : Thread nD τ).loc main_arg4)) shapeCasts_S128_S1x128 := by
  show StableHlo.after hostOps1 (W4 m ρ c) (Proc.devRef .tc main_v47) = _
  after_results
  rw [W4_arg4]; rfl

/-- and, as its shift row, the first shift argument laid out as one row of 128. -/
theorem V5_v48 (c : Dev nD) :
    V5 m ρ c main_v48 = shapeCast S1x128 (m ((c : Thread nD τ).loc main_arg5)) shapeCasts_S128_S1x128 := by
  show StableHlo.after hostOps1 (W4 m ρ c) (Proc.devRef .tc main_v48) = _
  after_results
  rw [W4_arg5]; rfl

/-- Region 2 finds the second scale and shift arguments, each laid out as one row of 128. -/
theorem V7_v50 (c : Dev nD) :
    V7 m ρ c main_v50 = shapeCast S1x128 (m ((c : Thread nD τ).loc main_arg6)) shapeCasts_S128_S1x128 := by
  show StableHlo.after hostOps2 (W6 m ρ c) (Proc.devRef .tc main_v50) = _
  after_results
  rw [W6_arg6]; rfl

theorem V7_v51 (c : Dev nD) :
    V7 m ρ c main_v51 = shapeCast S1x128 (m ((c : Thread nD τ).loc main_arg7)) shapeCasts_S128_S1x128 := by
  show StableHlo.after hostOps2 (W6 m ρ c) (Proc.devRef .tc main_v51) = _
  after_results
  rw [W6_arg7]; rfl

/-! ## The first result: region 1's output array, which the last stretch and region 2 leave alone -/

theorem W8_v49 (c : Dev nD) : W8 m ρ c (Proc.devRef .tc main_v49) = (dat1 (V5 m ρ) c).arrAt 3 cfg1.N :=
  calc W8 m ρ c (Proc.devRef .tc main_v49)
    _ = W7 m ρ c (Proc.devRef .tc main_v49) := W8_of_ne m ρ c main_v49 (by decide)
    _ = W6 m ρ c (Proc.devRef .tc main_v49) := StableHlo.after_of_forall_not_mem _ _ (unwritten hostOps2)
    _ = (dat1 (V5 m ρ) c).arrAt 3 cfg1.N := W6_arr m ρ c 3

/-- Region 0's output array at region 0's exit, where the second stretch reads it. -/
theorem W4_v30 (c : Dev nD) : W4 m ρ c (Proc.devRef .tc main_v30) = (dat0 (V3 m ρ) c).arrAt 2 cfg0.N :=
  W4_arr m ρ c 2

end Cert.KernelIdeal.Fold

end
-- ==== Proof.Spec.lean ====
/-
  The two row formulas this certificate is about, on the extended reals.

  A graph-convolution layer with two branches: both results are a layer normalisation, over the 128 features of a
  row, of a row of a matrix product.  Written once here, over a row given as a function of its feature index:

    dotRow xr wc   = the sum over k of  xr k * wc k        (row of x against column of W)
    lnRow a g b q  = ((a q - mean) * rsqrt (var + eps)) * g + b
                     mean = (sum over k of a k) / 128,   var = (sum over k of (a k - mean)^2) / 128

  The two float literals are kept as the binary words both programs print: 128.0 and the f32 nearest 1e-5.
-/
import Idealize.ShloMosaic.PureOps.Ideal
import Idealize.ShloMosaic.Lib.ValueIdx

noncomputable section

namespace Cert.Gcn

open Idealize.ShloMosaic

/-- The feature count as the programs write it: the f32 word of 128.0. -/
def width : EReal := Ideal.ofBits .f32 0x43000000#32
/-- The variance offset as the programs write it: the f32 word nearest 1e-5. -/
def eps : EReal := Ideal.ofBits .f32 0x3727C5AC#32

/-- A row against a column: the sum of the products over the 128 shared coordinates. -/
def dotRow (xr wc : Fin 128 → EReal) : EReal := ∑ k : Fin 128, xr k * wc k

/-- The mean of a row of 128 entries. -/
def rowMean (a : Fin 128 → EReal) : EReal := Ideal.div (∑ k : Fin 128, a k) width

/-- The (biased) variance of a row of 128 entries: the mean of the squared deviations from the row's mean. -/
def rowVar (a : Fin 128 → EReal) : EReal :=
  Ideal.div (∑ k : Fin 128, (a k - rowMean a) * (a k - rowMean a)) width

/-- Layer normalisation of the row `a` at feature `q`, with that feature's scale `g` and shift `b`. -/
def lnRow (a : Fin 128 → EReal) (g b : EReal) (q : Fin 128) : EReal :=
  ((a q - rowMean a) * Ideal.rsqrt (rowVar a + eps)) * g + b

/-! ## The same over whole arrays

An index of a `[n, 128]` array is taken apart into its row and its feature once, here, so that every statement
below and in the modules that use these reads at `ix2 r q` with `r : Fin n`, `q : Fin 128`. -/

open Idealize.ShloMosaic.ValueIdx

/-- The node count. -/
abbrev nodes : Nat := 100000

/-- The row of an index of a `[100000, 128]` array. -/
def row (i : (⟨2, ![nodes, 128]⟩ : Shape).Idx) : Fin nodes := ⟨(i 0).val, idx2_lt0 i⟩
/-- The feature of an index of a `[100000, 128]` array. -/
def col (i : (⟨2, ![nodes, 128]⟩ : Shape).Idx) : Fin 128 := ⟨(i 1).val, idx2_lt1 i⟩

theorem row_ix2 (r : Fin nodes) (q : Fin 128) : row (ix2 r q) = r := rfl
theorem col_ix2 (r : Fin nodes) (q : Fin 128) : col (ix2 r q) = q := rfl

/-- The matrix product `x · w` of a `[100000, 128]` array and a `[128, 128]` array, entry by entry. -/
def mmArr (x : (⟨2, ![nodes, 128]⟩ : Shape).Idx → EReal) (w : (⟨2, ![128, 128]⟩ : Shape).Idx → EReal) :
    (⟨2, ![nodes, 128]⟩ : Shape).Idx → EReal :=
  fun i => dotRow (fun k => x (ix2 (row i) k)) (fun k => w (ix2 k (col i)))

/-- Layer normalisation of every row of a `[100000, 128]` array, feature `q` scaled by `g q` and shifted by `b q`. -/
def lnArr (a : (⟨2, ![nodes, 128]⟩ : Shape).Idx → EReal) (g b : Fin 128 → EReal) :
    (⟨2, ![nodes, 128]⟩ : Shape).Idx → EReal :=
  fun i => lnRow (fun k => a (ix2 (row i) k)) (g (col i)) (b (col i)) (col i)

theorem mmArr_apply (x : (⟨2, ![nodes, 128]⟩ : Shape).Idx → EReal) (w : (⟨2, ![128, 128]⟩ : Shape).Idx → EReal)
    (r : Fin nodes) (q : Fin 128) :
    mmArr x w (ix2 r q) = dotRow (fun k => x (ix2 r k)) (fun k => w (ix2 k q)) := rfl

theorem lnArr_apply (a : (⟨2, ![nodes, 128]⟩ : Shape).Idx → EReal) (g b : Fin 128 → EReal)
    (r : Fin nodes) (q : Fin 128) :
    lnArr a g b (ix2 r q) = lnRow (fun k => a (ix2 r k)) (g q) (b q) q := rfl

/-- Two `[100000, 128]` arrays that agree at every `ix2 r q` are equal. -/
theorem ext_ix2 {f g : (⟨2, ![nodes, 128]⟩ : Shape).Idx → EReal}
    (h : ∀ (r : Fin nodes) (q : Fin 128), f (ix2 r q) = g (ix2 r q)) : f = g :=
  funext fun i => by rw [eq_ix2 i]; exact h _ _

end Cert.Gcn

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.Payload.lean ====
/-
  What each of the three kernel bodies stores, read at one entry of its 4000 x 128 block.

  The first body stores the block's rows against the 128 x 128 weight: entry (p, q) is row p against column q.
  The second stores the layer normalisation of each row of its block with the scale and shift rows it loads.
  The third stores the layer normalisation of each row of the product.  The narrowing of the operands before
  the product is the identity on the extended reals, the product into a zero accumulator is the plain sum, a
  row sum with the summed axis kept is read back at full width by the two column forms.
-/
import proofs.«181837_j32315333935196_1_alg».proof.Proof.Gen.KernelIdeal.Skeleton
import proofs.«181837_j32315333935196_1_alg».proof.Proof.Spec
import proofs.«181837_j32315333935196_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-! ## The product: one entry is a row against a column

The product contracts the second axis of its left operand with the first axis of its right operand. At the
output entry (i0, i1) and the contraction coordinate k it reads the left operand at (i0, k) and the right operand
at (k, i1): the four equations below, one per operand axis. -/

/-- The left operand's row is the output's row. -/
theorem lhs_axis0 (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

/-- The left operand's column is the contraction coordinate. -/
theorem lhs_axis1 (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c

/-- The right operand's row is the contraction coordinate. -/
theorem rhs_axis0 (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c

/-- The right operand's column is the output's column. -/
theorem rhs_axis1 (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product of a 4000 x 128 array and a 128 x 128 array into a zero accumulator, at entry (p, q): the plain sum
    over the 128 shared coordinates of the left operand's row p against the right operand's column q. The sum over
    the one-axis contraction index set is carried to the sum over its one coordinate. -/
theorem matmul_at (a : FVec Ideal S4000x128 .bf16) (w : FVec Ideal S128x128 .bf16) (p : Fin 4000) (q : Fin 128) :
    matmul dot_S4000x128_S128x128_S4000x128_1_0_0_1_n_n none a w (constant (F := Ideal) S4000x128 .f32 0x00000000#32) (ix2 p q)
      = ∑ k : Fin 128, a (ix2 p k) * w (ix2 k q) := by
  refine (Ideal.matmul_constant_zero_apply dot_S4000x128_S128x128_S4000x128_1_0_0_1_n_n none a w (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun ax => Fin.ext (by
    match ax with
    | ⟨0, _⟩ => exact lhs_axis0 _ _
    | ⟨1, _⟩ => exact (lhs_axis1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun ax => Fin.ext (by
    match ax with
    | ⟨0, _⟩ => exact (rhs_axis0 _ _).trans hk
    | ⟨1, _⟩ => exact rhs_axis1 _ _)
  rw [el, er]

/-- The product body at entry (p, q): row p of the block against column q of the weight. -/
theorem mm_at (x0 : Vec Ideal S4000x128 .f32) (x1 : Vec Ideal S128x128 .f32) (p : Fin 4000) (q : Fin 128) :
    k0_pay1 (F := Ideal) x0 x1 (ix2 p q) = Cert.Gcn.dotRow (fun k => x0 (ix2 p k)) (fun k => x1 (ix2 k q)) := by
  -- narrowing either operand is the identity on the extended reals
  refine (matmul_at (truncf (φ := .f32) .bf16 x0 bitsLt_bf16_f32) (truncf (φ := .f32) .bf16 x1 bitsLt_bf16_f32) p q).trans ?_
  rfl

/-! ## The normalisation of every row of an array

For an arbitrary 4000 x 128 array v: the sum of a row, the column of row means, the deviations from them, the
column of row variances, and the normalised entry, each read at one index. -/

/-- The sum over the second axis, at row p: the sum over the 128 features k of the entry (p, k). -/
theorem rowSum_at (v : FVec Ideal S4000x128 .f32) (h : S4000x128.Reduces [1] S4000) (hφ : FKind.Formats .f32)
    (hacc : (0x00000000#32 : BitVec 32) = 0x00000000#32) (p : Fin 4000) :
    multiReduction (F := Ideal) .add [1] S4000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext ax
  refine Fin.ext ?_
  match ax with
  | ⟨0, _⟩ => rfl
  | ⟨1, _⟩ => rfl

/-- The mean of each row, kept as a column: the row's sum, with the summed axis kept, over the feature count. -/
def rowMeanCol (v : FVec Ideal S4000x128 .f32) : FVec Ideal S4000x1 .f32 :=
  divf (shapeCast S4000x1 (multiReduction (F := Ideal) .add [1] S4000 v 0x00000000#32 reduces_S4000x128_S4000 (.inl rfl) rfl)
      shapeCasts_S4000_S4000x1)
    (broadcast S4000x1 (Scalar.ofBits (F := Ideal) .f32 0x43000000#32))

/-- The column of means at row p, whatever the unit coordinate: the mean of row p. -/
theorem rowMeanCol_at (v : FVec Ideal S4000x128 .f32) (p : Fin 4000) (u : Fin 1) :
    rowMeanCol v (ix2 p u) = Cert.Gcn.rowMean (fun k => v (ix2 p k)) := by
  unfold rowMeanCol
  rw [divf_apply, broadcast_apply, Keepdims.shapeCast_a_a1_apply, rowSum_at]
  rfl

/-- Each entry's deviation from the mean of its row: the array minus its column of means read back at full width. -/
def rowDev (v : FVec Ideal S4000x128 .f32) : FVec Ideal S4000x128 .f32 :=
  subf v (broadcastTo S4000x128 (rowMeanCol v) broadcasts_S4000x1_S4000x128)

/-- The deviation at entry (p, q): the entry minus the mean of row p. -/
theorem rowDev_at (v : FVec Ideal S4000x128 .f32) (p : Fin 4000) (q : Fin 128) :
    rowDev v (ix2 p q) = v (ix2 p q) - Cert.Gcn.rowMean (fun k => v (ix2 p k)) := by
  unfold rowDev
  rw [subf_apply, Keepdims.broadcastTo_a1_ab_apply, rowMeanCol_at]

/-- The mean of the squared deviations of row p is the variance of row p. -/
theorem rowVarCol_at (v : FVec Ideal S4000x128 .f32) (p : Fin 4000) (u : Fin 1) :
    rowMeanCol (mulf (rowDev v) (rowDev v)) (ix2 p u) = Cert.Gcn.rowVar (fun k => v (ix2 p k)) := by
  have e : ∀ k : Fin 128, mulf (rowDev v) (rowDev v) (ix2 p k)
      = (v (ix2 p k) - Cert.Gcn.rowMean (fun j => v (ix2 p j))) * (v (ix2 p k) - Cert.Gcn.rowMean (fun j => v (ix2 p j))) :=
    fun k => by rw [mulf_apply, rowDev_at]
  rw [rowMeanCol_at, funext e]
  rfl

/-- A scale or shift row, cast to its own shape twice and broadcast over the 4000 rows, reads at (p, q) its feature q. -/
theorem rowParam_at (g : FVec Ideal S1x128 .f32) (hs : S1x128.ShapeCasts S1x128) (hb : S1x128.Broadcasts S4000x128)
    (p : Fin 4000) (q : Fin 128) :
    broadcastTo S4000x128 (shapeCast S1x128 (shapeCast S1x128 g hs) hs) hb (ix2 p q) = g (ix2 (0 : Fin 1) q) := by
  simp only [shapeCast_self]
  exact broadcastTo_1b_ab_apply g hb p q

/-- The reciprocal square root at an index is the reciprocal square root of the entry. -/
theorem rsqrt_at {s : Shape} {φ : FTy} (a : FVec Ideal s φ) (i : s.Idx) : rsqrt a i = Ideal.rsqrt (a i) := rfl

/-- The layer normalisation of every row of v, feature by feature scaled by the row g and shifted by the row b:
    the deviation times the reciprocal square root of the variance plus the offset, times the scale, plus the shift. -/
def lnBody (v : FVec Ideal S4000x128 .f32) (g b : FVec Ideal S1x128 .f32) : FVec Ideal S4000x128 .f32 :=
  addf
    (mulf
      (mulf (rowDev v)
        (broadcastTo S4000x128
          (rsqrt (addf (rowMeanCol (mulf (rowDev v) (rowDev v))) (broadcast S4000x1 (Scalar.ofBits (F := Ideal) .f32 0x3727C5AC#32))))
          broadcasts_S4000x1_S4000x128))
      (broadcastTo S4000x128 (shapeCast S1x128 (shapeCast S1x128 g shapeCasts_S1x128_S1x128) shapeCasts_S1x128_S1x128)
        broadcasts_S1x128_S4000x128))
    (broadcastTo S4000x128 (shapeCast S1x128 (shapeCast S1x128 b shapeCasts_S1x128_S1x128) shapeCasts_S1x128_S1x128)
      broadcasts_S1x128_S4000x128)

/-- The normalised array at entry (p, q): the layer normalisation of row p at feature q. -/
theorem lnBody_at (v : FVec Ideal S4000x128 .f32) (g b : FVec Ideal S1x128 .f32) (p : Fin 4000) (q : Fin 128) :
    lnBody v g b (ix2 p q)
      = Cert.Gcn.lnRow (fun k => v (ix2 p k)) (g (ix2 (0 : Fin 1) q)) (b (ix2 (0 : Fin 1) q)) q := by
  unfold lnBody
  rw [addf_apply, mulf_apply, mulf_apply, rowParam_at, rowParam_at, Keepdims.broadcastTo_a1_ab_apply, rsqrt_at,
    addf_apply, broadcast_apply, rowDev_at, rowVarCol_at]
  rfl

/-- The normalising body is the normalisation of its block (cast to its own shape). -/
theorem k1_eq (x0 : Vec Ideal S4000x128 .f32) (g b : Vec Ideal S1x128 .f32) :
    k1_pay1 (F := Ideal) x0 g b = lnBody (shapeCast S4000x128 x0 shapeCasts_S4000x128_S4000x128) g b := rfl

/-- The fused body is the normalisation of the product body's result. -/
theorem k2_eq (x0 : Vec Ideal S4000x128 .f32) (x1 : Vec Ideal S128x128 .f32) (g b : Vec Ideal S1x128 .f32) :
    k2_pay1 (F := Ideal) x0 x1 g b = lnBody (k0_pay1 (F := Ideal) x0 x1) g b := rfl

/-- The normalising body at entry (p, q): the layer normalisation of row p of the block at feature q. -/
theorem ln_at (x0 : Vec Ideal S4000x128 .f32) (g b : Vec Ideal S1x128 .f32) (p : Fin 4000) (q : Fin 128) :
    k1_pay1 (F := Ideal) x0 g b (ix2 p q)
      = Cert.Gcn.lnRow (fun k => x0 (ix2 p k)) (g (ix2 (0 : Fin 1) q)) (b (ix2 (0 : Fin 1) q)) q := by
  rw [k1_eq, shapeCast_self, lnBody_at]

/-- The fused body at entry (p, q): the layer normalisation, at feature q, of row p of the block times the weight. -/
theorem mmln_at (x0 : Vec Ideal S4000x128 .f32) (x1 : Vec Ideal S128x128 .f32) (g b : Vec Ideal S1x128 .f32)
    (p : Fin 4000) (q : Fin 128) :
    k2_pay1 (F := Ideal) x0 x1 g b (ix2 p q)
      = Cert.Gcn.lnRow (fun k => Cert.Gcn.dotRow (fun j => x0 (ix2 p j)) (fun j => x1 (ix2 j k)))
          (g (ix2 (0 : Fin 1) q)) (b (ix2 (0 : Fin 1) q)) q := by
  have e : (fun k : Fin 128 => k0_pay1 (F := Ideal) x0 x1 (ix2 p k))
      = fun k => Cert.Gcn.dotRow (fun j => x0 (ix2 p j)) (fun j => x1 (ix2 j k)) := funext fun k => mm_at x0 x1 p k
  rw [k2_eq, lnBody_at, e]

end Cert.KernelIdeal.Payload

end
-- ==== Proof.Blocks.lean ====
/-
  From blocks to arrays, for each of the three kernel regions, at whatever contents the region is entered with.

  Each region walks the 25 blocks of 4000 rows of a 100000 x 128 array: at point t it reads rows 4000 t .. 4000 t + 3999
  of its row-blocked operand, the whole of its small operands (the 128 x 128 weight, the 1 x 128 scale and shift rows),
  and writes the same rows of its result.  What point t writes back is therefore block t of ONE whole-array function
  of the entry contents, and the 25 blocks cover the array: the result array ends holding that function.
-/
import proofs.«181837_j32315333935196_1_alg».proof.Proof.Gen.KernelIdeal.Frame
import proofs.«181837_j32315333935196_1_alg».proof.Proof.Payload
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Shared by the three regions -/

/-- The zero offsets of a whole-buffer load or store, as the constant function. -/
theorem offsets_zero : (![0, 0] : Fin 2 → Nat) = fun _ => 0 := funext fun a => by fin_cases a <;> rfl

/-- Row `p` of the `n`-th block of 4000 rows, as a row of the 100000: 25 blocks of 4000 rows fill them. -/
def rowOf (n : Nat) (hn : n < 25) (p : Fin 4000) : Fin 100000 :=
  ⟨4000 * n + p.val, by have := p.isLt; omega⟩

/-- A row against a column depends only on the entries of the two. -/
theorem dotRow_congr {x x' w w' : Fin 128 → EReal} (hx : ∀ k, x k = x' k) (hw : ∀ k, w k = w' k) :
    Cert.Gcn.dotRow x w = Cert.Gcn.dotRow x' w' := by
  obtain rfl : x = x' := funext hx
  obtain rfl : w = w' := funext hw
  rfl

/-- The layer normalisation of a row at a feature depends only on the row's entries, the scale and the shift. -/
theorem lnRow_congr {a a' : Fin 128 → EReal} {g g' b b' : EReal} (q : Fin 128) (ha : ∀ k, a k = a' k)
    (hg : g = g') (hb : b = b') : Cert.Gcn.lnRow a g b q = Cert.Gcn.lnRow a' g' b' q := by
  obtain rfl : a = a' := funext ha
  subst hg hb
  rfl

/-! ## Region 0: the product -/

/-- The printed index maps over the 25 points: the operand's and the result's blocks are block (t, 0) of their arrays,
    the weight's is block (0, 0): the whole of it. -/
theorem index_maps0 : ∀ t : Fin cfg0.N, t.val < 25
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the operand's block at point `t` sits at row 4000 t + p, column k of the operand array. -/
theorem emb0_x (t : Fin cfg0.N) (p : Fin 4000) (k : Fin 128) (r : Fin 100000) (hr : r.val = 4000 * t.val + p.val) :
    ((cfg0.win 0).blk t).view.emb (ix2 p k) = ix2 r k := by
  obtain ⟨-, e0, e1, -⟩ := index_maps0 t
  funext a; apply Fin.ext
  match a with
  | ⟨0, _⟩ => show win0_0.index t (0 : Fin 2) * 4000 + 1 * p.val = r.val; omega
  | ⟨1, _⟩ => show win0_0.index t (1 : Fin 2) * 128 + 1 * k.val = k.val; omega

/-- Entry (k, q) of the weight's block at any point is entry (k, q) of the weight array. -/
theorem emb0_w (t : Fin cfg0.N) (k : Fin 128) (q : Fin 128) :
    ((cfg0.win 1).blk t).view.emb (ix2 k q) = ix2 k q := by
  obtain ⟨-, -, -, e0, e1, -⟩ := index_maps0 t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Entry (p, q) of the result's block at point `t` sits at row 4000 t + p, column q of the result array. -/
theorem emb0_out (t : Fin cfg0.N) (p : Fin 4000) (q : Fin 128) (r : Fin 100000) (hr : r.val = 4000 * t.val + p.val) :
    ((cfg0.win 2).blk t).view.emb (ix2 p q) = ix2 r q := by
  obtain ⟨-, -, -, -, -, e0, e1⟩ := index_maps0 t
  funext a; apply Fin.ext
  match a with
  | ⟨0, _⟩ => show win0_2.index t (0 : Fin 2) * 4000 + 1 * p.val = r.val; omega
  | ⟨1, _⟩ => show win0_2.index t (1 : Fin 2) * 128 + 1 * q.val = q.val; omega

/-- The operand's block at point `t`, read at (p, k), is the operand array at row 4000 t + p. -/
theorem read0_x (c : Dev nD) (t : Fin cfg0.N) (p : Fin 4000) (k : Fin 128) (r : Fin 100000)
    (hr : r.val = 4000 * t.val + p.val) :
    iblk0 (F := Ideal) V c 0 t (ix2 p k) = V c main_arg0 (ix2 r k) := by
  unfold iblk0
  show V c main_arg0 (((cfg0.win 0).blk t).view.emb (ix2 p k)) = _
  rw [emb0_x t p k r hr]

/-- The weight's block at any point is the weight array. -/
theorem read0_w (c : Dev nD) (t : Fin cfg0.N) (k : Fin 128) (q : Fin 128) :
    iblk0 (F := Ideal) V c 1 t (ix2 k q) = V c main_arg2 (ix2 k q) := by
  unfold iblk0
  show V c main_arg2 (((cfg0.win 1).blk t).view.emb (ix2 k q)) = _
  rw [emb0_w t k q]

/-- What point `t` writes back is block `t` of the product of the two operand arrays. -/
theorem written0 (c : Dev nD) (t : Fin cfg0.N) :
    (dat0 (F := Ideal) V c).flushed 2 t
      = ((cfg0.win 2).blk t).view.read (Elt Ideal) (Cert.Gcn.mmArr (V c main_arg0) (V c main_arg2)) := by
  show (cfg0.win 2).cut (grid0.coords t) ((dat0 (F := Ideal) V c).after 2 t) = _
  rw [after0_2]
  unfold out0_2
  rw [View.canon_unit_zero offsets_zero]
  simp only [View.ld_unit_zero (S := S4000x128) offsets_zero, View.ld_unit_zero (S := S128x128) offsets_zero]
  funext y
  obtain ⟨p, q, rfl⟩ : ∃ (p : Fin 4000) (q : Fin 128), y = ix2 p q := ⟨y 0, y 1, eq_ix2 y⟩
  obtain ⟨ht, -⟩ := index_maps0 t
  refine (Payload.mm_at _ _ p q).trans ?_
  show _ = Cert.Gcn.mmArr (V c main_arg0) (V c main_arg2) (((cfg0.win 2).blk t).view.emb (ix2 p q))
  rw [emb0_out t p q (rowOf t.val ht p) rfl, Cert.Gcn.mmArr_apply]
  exact dotRow_congr (fun k => read0_x V c t p k (rowOf t.val ht p) rfl) (fun k => read0_w V c t k q)

/-- An index of the result array is in point `t`'s block iff each coordinate is in the block's range on its axis. -/
theorem mem_block0 (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v30).slice (win0_2.rect t)).set ↔ _
  rw [View.set_slice_whole, Rect.mem_set_unit]
  exact Iff.rfl

/-- Every index of the result array is in the block of the point its row divided by 4000 names. -/
theorem covered0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  obtain ⟨t, ht⟩ : ∃ t : Fin cfg0.N, t.val = (i 0).val / 4000 :=
    ⟨⟨(i 0).val / 4000, by rw [show cfg0.N = 25 from N_0]; omega⟩, rfl⟩
  obtain ⟨-, -, -, -, -, e0, e1⟩ := index_maps0 t
  refine ⟨t, flush0_2 t, ?_⟩
  rw [mem_block0]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 128 ≤ (i 1).val ∧ (i 1).val < win0_2.index t (1 : Fin 2) * 128 + 128
    omega

/-- Region 0 leaves the product of its two operand arrays in its result array. -/
theorem region0 (c : Dev nD) :
    (dat0 (F := Ideal) V c).arrAt 2 cfg0.N = Cert.Gcn.mmArr (V c main_arg0) (V c main_arg2) :=
  (dat0 (F := Ideal) V c).arrAt_eq_of_cover 2 (Cert.Gcn.mmArr (V c main_arg0) (V c main_arg2))
    (fun t _ => written0 V c t) covered0

/-! ## Region 1: the layer normalisation -/

/-- The printed index maps over the 25 points: the operand's and the result's blocks are block (t, 0) of their arrays,
    the scale row's and the shift row's are block (0, 0): the whole of each. -/
theorem index_maps1 : ∀ t : Fin cfg1.N, t.val < 25
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the operand's block at point `t` sits at row 4000 t + p, column k of the operand array. -/
theorem emb1_x (t : Fin cfg1.N) (p : Fin 4000) (k : Fin 128) (r : Fin 100000) (hr : r.val = 4000 * t.val + p.val) :
    ((cfg1.win 0).blk t).view.emb (ix2 p k) = ix2 r k := by
  obtain ⟨-, e0, e1, -⟩ := index_maps1 t
  funext a; apply Fin.ext
  match a with
  | ⟨0, _⟩ => show win1_0.index t (0 : Fin 2) * 4000 + 1 * p.val = r.val; omega
  | ⟨1, _⟩ => show win1_0.index t (1 : Fin 2) * 128 + 1 * k.val = k.val; omega

/-- Entry (0, q) of the scale row's block at any point is entry (0, q) of the scale row. -/
theorem emb1_g (t : Fin cfg1.N) (z : Fin 1) (q : Fin 128) :
    ((cfg1.win 1).blk t).view.emb (ix2 z q) = ix2 z q := by
  obtain ⟨-, -, -, e0, e1, -⟩ := index_maps1 t
  funext a; apply Fin.ext
  match a with
  | ⟨0, _⟩ => show win1_1.index t (0 : Fin 2) * 1 + 1 * z.val = z.val; omega
  | ⟨1, _⟩ => show win1_1.index t (1 : Fin 2) * 128 + 1 * q.val = q.val; omega

/-- Entry (0, q) of the shift row's block at any point is entry (0, q) of the shift row. -/
theorem emb1_b (t : Fin cfg1.N) (z : Fin 1) (q : Fin 128) :
    ((cfg1.win 2).blk t).view.emb (ix2 z q) = ix2 z q := by
  obtain ⟨-, -, -, -, -, e0, e1, -⟩ := index_maps1 t
  funext a; apply Fin.ext
  match a with
  | ⟨0, _⟩ => show win1_2.index t (0 : Fin 2) * 1 + 1 * z.val = z.val; omega
  | ⟨1, _⟩ => show win1_2.index t (1 : Fin 2) * 128 + 1 * q.val = q.val; omega

/-- Entry (p, q) of the result's block at point `t` sits at row 4000 t + p, column q of the result array. -/
theorem emb1_out (t : Fin cfg1.N) (p : Fin 4000) (q : Fin 128) (r : Fin 100000) (hr : r.val = 4000 * t.val + p.val) :
    ((cfg1.win 3).blk t).view.emb (ix2 p q) = ix2 r q := by
  obtain ⟨-, -, -, -, -, -, -, e0, e1⟩ := index_maps1 t
  funext a; apply Fin.ext
  match a with
  | ⟨0, _⟩ => show win1_3.index t (0 : Fin 2) * 4000 + 1 * p.val = r.val; omega
  | ⟨1, _⟩ => show win1_3.index t (1 : Fin 2) * 128 + 1 * q.val = q.val; omega

/-- The operand's block at point `t`, read at (p, k), is the operand array at row 4000 t + p. -/
theorem read1_x (c : Dev nD) (t : Fin cfg1.N) (p : Fin 4000) (k : Fin 128) (r : Fin 100000)
    (hr : r.val = 4000 * t.val + p.val) :
    iblk1 (F := Ideal) V c 0 t (ix2 p k) = V c main_v46 (ix2 r k) := by
  unfold iblk1
  show V c main_v46 (((cfg1.win 0).blk t).view.emb (ix2 p k)) = _
  rw [emb1_x t p k r hr]

/-- The scale row's block at any point is the scale row. -/
theorem read1_g (c : Dev nD) (t : Fin cfg1.N) (q : Fin 128) :
    iblk1 (F := Ideal) V c 1 t (ix2 (0 : Fin 1) q) = V c main_v47 (ix2 (0 : Fin 1) q) := by
  unfold iblk1
  show V c main_v47 (((cfg1.win 1).blk t).view.emb (ix2 (0 : Fin 1) q)) = _
  rw [emb1_g t 0 q]

/-- The shift row's block at any point is the shift row. -/
theorem read1_b (c : Dev nD) (t : Fin cfg1.N) (q : Fin 128) :
    iblk1 (F := Ideal) V c 2 t (ix2 (0 : Fin 1) q) = V c main_v48 (ix2 (0 : Fin 1) q) := by
  unfold iblk1
  show V c main_v48 (((cfg1.win 2).blk t).view.emb (ix2 (0 : Fin 1) q)) = _
  rw [emb1_b t 0 q]

/-- What point `t` writes back is block `t` of the row-wise layer normalisation of the operand array. -/
theorem written1 (c : Dev nD) (t : Fin cfg1.N) :
    (dat1 (F := Ideal) V c).flushed 3 t
      = ((cfg1.win 3).blk t).view.read (Elt Ideal)
          (Cert.Gcn.lnArr (V c main_v46) (fun q => V c main_v47 (ix2 (0 : Fin 1) q)) (fun q => V c main_v48 (ix2 (0 : Fin 1) q))) := by
  show (cfg1.win 3).cut (grid1.coords t) ((dat1 (F := Ideal) V c).after 3 t) = _
  rw [after1_3]
  unfold out1_3
  rw [View.canon_unit_zero offsets_zero]
  simp only [View.ld_unit_zero (S := S4000x128) offsets_zero, View.ld_unit_zero (S := S1x128) offsets_zero]
  funext y
  obtain ⟨p, q, rfl⟩ : ∃ (p : Fin 4000) (q : Fin 128), y = ix2 p q := ⟨y 0, y 1, eq_ix2 y⟩
  obtain ⟨ht, -⟩ := index_maps1 t
  refine (Payload.ln_at _ _ _ p q).trans ?_
  show _ = Cert.Gcn.lnArr (V c main_v46) (fun q => V c main_v47 (ix2 (0 : Fin 1) q)) (fun q => V c main_v48 (ix2 (0 : Fin 1) q))
    (((cfg1.win 3).blk t).view.emb (ix2 p q))
  rw [emb1_out t p q (rowOf t.val ht p) rfl, Cert.Gcn.lnArr_apply]
  exact lnRow_congr q (fun k => read1_x V c t p k (rowOf t.val ht p) rfl) (read1_g V c t q) (read1_b V c t q)

/-- An index of the result array is in point `t`'s block iff each coordinate is in the block's range on its axis. -/
theorem mem_block1 (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v49).slice (win1_3.rect t)).set ↔ _
  rw [View.set_slice_whole, Rect.mem_set_unit]
  exact Iff.rfl

/-- Every index of the result array is in the block of the point its row divided by 4000 names. -/
theorem covered1 (i : S100000x128.Idx) :
    ∃ t : Fin cfg1.N, (cfg1.win 3).flush t = true ∧ i ∈ ((cfg1.win 3).blk t).view.set := by
  have hi0 : (i 0).val < 100000 := idx2_lt0 i
  have hi1 : (i 1).val < 128 := idx2_lt1 i
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, -, e0, e1⟩ := index_maps1 t
  refine ⟨t, flush1_3 t, ?_⟩
  rw [mem_block1]
  intro a
  match a with
  | ⟨0, _⟩ =>
    show win1_3.index t (0 : Fin 2) * 4000 ≤ (i 0).val ∧ (i 0).val < win1_3.index t (0 : Fin 2) * 4000 + 4000
    omega
  | ⟨1, _⟩ =>
    show win1_3.index t (1 : Fin 2) * 128 ≤ (i 1).val ∧ (i 1).val < win1_3.index t (1 : Fin 2) * 128 + 128
    omega

/-- Region 1 leaves the layer normalisation of its operand array's rows, scaled and shifted by its two row operands. -/
theorem region1 (c : Dev nD) :
    (dat1 (F := Ideal) V c).arrAt 3 cfg1.N
      = Cert.Gcn.lnArr (V c main_v46) (fun q => V c main_v47 (ix2 (0 : Fin 1) q)) (fun q => V c main_v48 (ix2 (0 : Fin 1) q)) :=
  (dat1 (F := Ideal) V c).arrAt_eq_of_cover 3
    (Cert.Gcn.lnArr (V c main_v46) (fun q => V c main_v47 (ix2 (0 : Fin 1) q)) (fun q => V c main_v48 (ix2 (0 : Fin 1) q)))
    (fun t _ => written1 V c t) covered1

/-! ## Region 2: the layer normalisation of the product -/

/-- The printed index maps over the 25 points: the operand's and the result's blocks are block (t, 0) of their arrays,
    the weight's, the scale row's and the shift row's are block (0, 0): the whole of each. -/
theorem index_maps2 : ∀ t : Fin cfg2.N, t.val < 25
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry (p, k) of the operand's block at point `t` sits at row 4000 t + p, column k of the operand array. -/
theorem emb2_x (t : Fin cfg2.N) (p : Fin 4000) (k : Fin 128) (r : Fin 100000) (hr : r.val = 4000 * t.val + p.val) :
    ((cfg2.win 0).blk t).view.emb (ix2 p k) = ix2 r k := by
  obtain ⟨-, e0, e1, -⟩ := index_maps2 t
  funext a; apply Fin.ext
  match a with
  | ⟨0, _⟩ => show win2_0.index t (0 : Fin 2) * 4000 + 1 * p.val = r.val; omega
  | ⟨1, _⟩ => show win2_0.index t (1 : Fin 2) * 128 + 1 * k.val = k.val; omega

/-- Entry (k, q) of the weight's block at any point is entry (k, q) of the weight array. -/
theorem emb2_w (t : Fin cfg2.N) (k : Fin 128) (q : Fin 128) :
    ((cfg2.win 1).blk t).view.emb (ix2 k q) = ix2 k q := by
  obtain ⟨-, -, -, e0, e1, -⟩ := index_maps2 t
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- Entry (0, q) of the scale row's block at any point is entry (0, q) of the scale row. -/
theorem emb2_g (t : Fin cfg2.N) (z : Fin 1) (q : Fin 128) :
    ((cfg2.win 2).blk t).view.emb (ix2 z q) = ix2 z q := by
  obtain ⟨-, -, -, -, -, e0, e1, -⟩ := index_maps2 t
  funext a; apply Fin.ext
  match a with
  | ⟨0, _⟩ => show win2_2.index t (0 : Fin 2) * 1 + 1 * z.val = z.val; omega
  | ⟨1, _⟩ => show win2_2.index t (1 : Fin 2) * 128 + 1 * q.val = q.val; omega

/-- Entry (0, q) of the shift row's block at any point is entry (0, q) of the shift row. -/
theorem emb2_b (t : Fin cfg2.N) (z : Fin 1) (q : Fin 128) :
    ((cfg2.win 3).blk t).view.emb (ix2 z q) = ix2 z q := by
  obtain ⟨-, -, -, -, -, -, -, e0, e1, -⟩ := index_maps2 t
  funext a; apply Fin.ext
  match a with
  | ⟨0, _⟩ => show win2_3.index t (0 : Fin 2) * 1 + 1 * z.val = z.val; omega
  | ⟨1, _⟩ => show win2_3.index t (1 : Fin 2) * 128 + 1 * q.val = q.val; omega

/-- Entry (p, q) of the result's block at point `t` sits at row 4000 t + p, column q of the result array. -/
theorem emb2_out (t : Fin cfg2.N) (p : Fin 4000) (q : Fin 128) (r : Fin 100000) (hr : r.val = 4000 * t.val + p.val) :
    ((cfg2.win 4).blk t).view.emb (ix2 p q) = ix2 r q := by
  obtain ⟨-, -, -, -, -, -, -, -, -, e0, e1⟩ := index_maps2 t
  funext a; apply Fin.ext
  match a with
  | ⟨0, _⟩ => show win2_4.index t (0 : Fin 2) * 4000 + 1 * p.val = r.val; omega
  | ⟨1, _⟩ => show win2_4.index t (1 : Fin 2) * 128 + 1 * q.val = q.val; omega

/-- The operand's block at point `t`, read at (p, k), is the operand array at row 4000 t + p. -/
theorem read2_x (c : Dev nD) (t : Fin cfg2.N) (p : Fin 4000) (k : Fin 128) (r : Fin 100000)
    (hr : r.val = 4000 * t.val + p.val) :
    iblk2 (F := Ideal) V c 0 t (ix2 p k) = V c main_arg1 (ix2 r k) := by
  unfold iblk2
  show V c main_arg1 (((cfg2.win 0).blk t).view.emb (ix2 p k)) = _
  rw [emb2_x t p k r hr]

/-- The weight's block at any point is the weight array. -/
theorem read2_w (c : Dev nD) (t : Fin cfg2.N) (k : Fin 128) (q : Fin 128) :
    iblk2 (F := Ideal) V c 1 t (ix2 k q) = V c main_arg2 (ix2 k q) := by
  unfold iblk2
  show V c main_arg2 (((cfg2.win 1).blk t).view.emb (ix2 k q)) = _
  rw [emb2_w t k q]

/-- The scale row's block at any point is the scale row. -/
theorem read2_g (c : Dev nD) (t : Fin cfg2.N) (q : Fin 128) :
    iblk2 (F := Ideal) V c 2 t (ix2 (0 : Fin 1) q) = V c main_v50 (ix2 (0 : Fin 1) q) := by
  unfold iblk2
  show V c main_v50 (((cfg2.win 2).blk t).view.emb (ix2 (0 : Fin 1) q)) = _
  rw [emb2_g t 0 q]

/-- The shift row's block at any point is the shift row. -/
theorem read2_b (c : Dev nD) (t : Fin cfg2.N) (q : Fin 128) :
    iblk2 (F := Ideal) V c 3 t (ix2 (0 : Fin 1) q) = V c main_v51 (ix2 (0 : Fin 1) q) := by
  unfold iblk2
  show V c main_v51 (((cfg2.win 3).blk t).view.emb (ix2 (0 : Fin 1) q)) = _
  rw [emb2_b t 0 q]

/-- What point `t` writes back is block `t` of the row-wise layer normalisation of the product of the two operand arrays. -/
theorem written2 (c : Dev nD) (t : Fin cfg2.N) :
    (dat2 (F := Ideal) V c).flushed 4 t
      = ((cfg2.win 4).blk t).view.read (Elt Ideal)
          (Cert.Gcn.lnArr (Cert.Gcn.mmArr (V c main_arg1) (V c main_arg2))
            (fun q => V c main_v50 (ix2 (0 : Fin 1) q)) (fun q => V c main_v51 (ix2 (0 : Fin 1) q))) := by
  show (cfg2.win 4).cut (grid2.coords t) ((dat2 (F := Ideal) V c).after 4 t) = _
  rw [after2_4]
  unfold out2_4
  rw [View.canon_unit_zero offsets_zero]
  simp only [View.ld_unit_zero (S := S4000x128) offsets_zero, View.ld_unit_zero (S := S128x128) offsets_zero,
    View.ld_unit_zero (S := S1x128) offsets_zero]
  funext y
  obtain ⟨p, q, rfl⟩ : ∃ (p : Fin 4000) (q : Fin 128), y = ix2 p q := ⟨y 0, y 1, eq_ix2 y⟩
  obtain ⟨ht, -⟩ := index_maps2 t
  refine (Payload.mmln_at _ _ _ _ p q).trans ?_
  show _ = Cert.Gcn.lnArr (Cert.Gcn.mmArr (V c main_arg1) (V c main_arg2))
    (fun q => V c main_v50 (ix2 (0 : Fin 1) q)) (fun q => V c main_v51 (ix2 (0 : Fin 1) q))
    (((cfg2.win 4).blk t).view.emb (ix2 p q))
  rw [emb2_out t p q (rowOf t.val ht p) rfl, Cert.Gcn.lnArr_apply]
  exact lnRow_congr q
    (fun k => (dotRow_congr (fun j => read2_x V c t p j (rowOf t.val ht p) rfl) (fun j => read2_w V c t j k)).trans
      (Cert.Gcn.mmArr_apply (V c main_arg1) (V c main_arg2) (rowOf t.val ht p) k).symm)
    (read2_g V c t q) (read2_b V c t q)

/-- An index of the result array is in point `t`'s block iff each coordinate is in the block's range on its axis. -/
theorem mem_block2 (t : Fin cfg2.N) (i : S100000x128.Idx) :
    i ∈ ((cfg2.win 4).blk t).view.set ↔ ∀ a : Fin 2, win2_4.index t a * S4000x128.size a ≤ (i a).val
      ∧ (i a).val < win2_4.index t a * S4000x128.size a + S4000x128.size a := by
  show i ∈ ((View.whole main_v52).slice (win2_4.rect t)).set ↔ _
  rw [View.set_slice_whole, Rect.mem_set_unit]
  exact Iff.rfl

/-- Every index of the result array is in the block of the point its row divided by 4000 names. -/
theorem covered2 (i : S100000x128.Idx) :
    ∃ t : Fin cfg2.N, (cfg2.win 4).flush t = true ∧ i ∈ ((cfg2.win 4).blk t).view.set := by
  have hi0 : (i 0).val < 100000 := idx2_lt0 i
  have hi1 : (i 1).val < 128 := idx2_lt1 i
  obtain ⟨t, ht⟩ : ∃ t : Fin cfg2.N, t.val = (i 0).val / 4000 :=
    ⟨⟨(i 0).val / 4000, by rw [show cfg2.N = 25 from N_2]; omega⟩, rfl⟩
  obtain ⟨-, -, -, -, -, -, -, -, -, e0, e1⟩ := index_maps2 t
  refine ⟨t, flush2_4 t, ?_⟩
  rw [mem_block2]
  intro a
  match a with
  | ⟨0, _⟩ =>
    show win2_4.index t (0 : Fin 2) * 4000 ≤ (i 0).val ∧ (i 0).val < win2_4.index t (0 : Fin 2) * 4000 + 4000
    omega
  | ⟨1, _⟩ =>
    show win2_4.index t (1 : Fin 2) * 128 ≤ (i 1).val ∧ (i 1).val < win2_4.index t (1 : Fin 2) * 128 + 128
    omega

/-- Region 2 leaves the layer normalisation of the rows of the product of its first two operand arrays. -/
theorem region2 (c : Dev nD) :
    (dat2 (F := Ideal) V c).arrAt 4 cfg2.N
      = Cert.Gcn.lnArr (Cert.Gcn.mmArr (V c main_arg1) (V c main_arg2))
          (fun q => V c main_v50 (ix2 (0 : Fin 1) q)) (fun q => V c main_v51 (ix2 (0 : Fin 1) q)) :=
  (dat2 (F := Ideal) V c).arrAt_eq_of_cover 4
    (Cert.Gcn.lnArr (Cert.Gcn.mmArr (V c main_arg1) (V c main_arg2))
      (fun q => V c main_v50 (ix2 (0 : Fin 1) q)) (fun q => V c main_v51 (ix2 (0 : Fin 1) q)))
    (fun t _ => written2 V c t) covered2

end Cert.KernelIdeal.Blocks

end
-- ==== Proof.Chain.lean ====
/-
  The host side shared by the two programs.

  Around its three regions the kernel program applies, to the edge array and to the first region's product, the very
  operations the reference applies: the source and destination index lists with the self loops appended, the degree
  by a scatter-add of ones, its inverse square root where positive, the edge weights by two gathers, then the
  gather of the product's rows, their scaling, the scatter-add into the destinations and the bias.  So what region 1
  is entered with is the reference's aggregated array, with the first region's result standing where the reference
  has its own matrix product.  Nothing here opens a gather or a scatter: the two chains are one term.
-/
import proofs.«181837_j32315333935196_1_alg».proof.Proof.Fold
import proofs.«181837_j32315333935196_1_alg».proof.Proof.RefRead

set_option maxRecDepth 16384

noncomputable section

namespace Cert.Chain

open Cert.KernelIdeal Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The aggregation as a function of the array it gathers rows from: the reference's stages from the row gather to
    the bias, with that array in place of the reference's own product. -/
def aggOf (xt : (⟨Cert.ReferenceIdeal.S100000x128, .f32⟩ : BufTy).Contents (Elt F))
    (x3 : (⟨Cert.ReferenceIdeal.S128, .f32⟩ : BufTy).Contents (Elt F))
    (x8 : (⟨Cert.ReferenceIdeal.S2x1600000, .i32⟩ : BufTy).Contents (Elt F)) :
    (⟨Cert.ReferenceIdeal.S100000x128, .f32⟩ : BufTy).Contents (Elt F) :=
  addf (Host.scatterAdd Cert.ReferenceIdeal.scatter_S100000x128_S1700000x1_S1700000x128_1_0_0_1
      (Cert.ReferenceIdeal.ReadP.val_main_v41 (F := F)) (Cert.ReferenceIdeal.ReadP.val_main_v42 (F := F) x8)
      (mulf (Host.gather Cert.ReferenceIdeal.gather_S100000x128_S1700000x1_S1700000x128_1_0_n_n_0_1_1128 xt
          (Cert.ReferenceIdeal.ReadP.val_main_v36 (F := F) x8))
        (Cert.ReferenceIdeal.ReadP.val_main_v39 (F := F) x8)))
    (Cert.ReferenceIdeal.ReadP.val_main_v45 (F := F) x3)

/-- The reference's aggregated array is that function of its own product. -/
theorem aggOf_ref (x0 : (⟨Cert.ReferenceIdeal.S100000x128, .f32⟩ : BufTy).Contents (Elt F))
    (x2 : (⟨Cert.ReferenceIdeal.S128x128, .f32⟩ : BufTy).Contents (Elt F))
    (x3 : (⟨Cert.ReferenceIdeal.S128, .f32⟩ : BufTy).Contents (Elt F))
    (x8 : (⟨Cert.ReferenceIdeal.S2x1600000, .i32⟩ : BufTy).Contents (Elt F)) :
    Cert.ReferenceIdeal.ReadP.val_main_v46 (F := F) x0 x2 x3 x8
      = aggOf (Cert.ReferenceIdeal.ReadP.val_main_v30 (F := F) x0 x2) x3 x8 := rfl

/-! ## What the first three stretches leave: the index lists and the edge weights, as the reference's stages -/

/-- The source indices with the self loops appended. -/
theorem W3_v5 (c : Dev nD) :
    W3 m ρ c (Proc.devRef .tc main_v5)
      = Cert.ReferenceIdeal.ReadP.val_main_v5 (F := F) (m ((c : Thread nD τ).loc main_arg8)) := by
  show StableHlo.after hostOps0_2 (W2 m ρ c) (Proc.devRef .tc main_v5) = _
  after_results
  rfl

/-- The destination indices with the self loops appended. -/
theorem W3_v6 (c : Dev nD) :
    W3 m ρ c (Proc.devRef .tc main_v6)
      = Cert.ReferenceIdeal.ReadP.val_main_v6 (F := F) (m ((c : Thread nD τ).loc main_arg8)) := by
  show StableHlo.after hostOps0_2 (W2 m ρ c) (Proc.devRef .tc main_v6) = _
  after_results
  rfl

set_option maxHeartbeats 2000000 in
/-- The edge weights: the product of the inverse square roots of the two end points' degrees. -/
theorem W3_v29 (c : Dev nD) :
    W3 m ρ c (Proc.devRef .tc main_v29)
      = Cert.ReferenceIdeal.ReadP.val_main_v29 (F := F) (m ((c : Thread nD τ).loc main_arg8)) := by
  show StableHlo.after hostOps0_2 (W2 m ρ c) (Proc.devRef .tc main_v29) = _
  after_results_simp
  repeat (first
    | rw [StableHlo.nullary_result] | rw [StableHlo.unary_result] | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide))
  rfl

/-! ## What region 1 is entered with -/

set_option maxHeartbeats 2000000 in
/-- Region 1's row-blocked operand: the aggregation of the first region's result array. -/
theorem V5_v46 (c : Dev nD) :
    V5 m ρ c main_v46
      = aggOf ((dat0 (V3 m ρ) c).arrAt 2 cfg0.N) (m ((c : Thread nD τ).loc main_arg3)) (m ((c : Thread nD τ).loc main_arg8)) := by
  show StableHlo.after hostOps1 (W4 m ρ c) (Proc.devRef .tc main_v46) = _
  after_results_simp
  rw [Fold.W4_v30 m ρ c, Fold.W4_arg3 m ρ c,
    (W4_of_ne m ρ c main_v5 (by decide)).trans (W3_v5 m ρ c),
    (W4_of_ne m ρ c main_v6 (by decide)).trans (W3_v6 m ρ c),
    (W4_of_ne m ρ c main_v29 (by decide)).trans (W3_v29 m ρ c)]
  rfl

end Cert.Chain

end
-- ==== Proof.RefSide.lean ====
/-
  The reference's two results as the row formulas.

  Its second result is the layer normalisation of the rows of x_ · W; its first the layer normalisation of the rows
  of the aggregated array.  The normalisation is read here once, for an ARBITRARY array in place of the one being
  normalised: a host sum from a zero initial value is the plain sum, a column of per-row values set against the full
  width is read at its row, the scale and shift rows at the feature.  The reference's stages are then that function
  of its aggregated array, and of its second product, by unfolding their definitions.
-/
import proofs.«181837_j32315333935196_1_alg».proof.Proof.RefRead
import proofs.«181837_j32315333935196_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.ReferenceIdeal.RefSide

open Cert.ReferenceIdeal Cert.ReferenceIdeal.Gen Cert.ReferenceIdeal.ReadP Idealize.ShloMosaic Idealize.ShloMosaic.ValueIdx

/-! ## The layout operations of the normalisation, read at a row and a feature -/

section Reads
variable (r : Fin Cert.Gcn.nodes) (q : Fin 128) (z : Fin 1)

/-- A vector of per-row values set up as a column is read at its row. -/
theorem column_at (y : FVec Ideal S100000 .f32) :
    broadcastInDim S100000x1 ![0] bcast_S100000_S100000x1_0 y (ix2 r z) = y (ix1 r) :=
  broadcastInDim_apply _ bcast_S100000_S100000x1_0 y (ix2 r z) (ix1 r) (fun a => match a with
    | ⟨0, _⟩ => by show r.val = if (100000 : Nat) = 1 then 0 else r.val; rw [if_neg (by decide)])

/-- A scalar spread over a column is that scalar. -/
theorem scalar_column_at (y : FVec Ideal S_ .f32) :
    broadcastInDim S100000x1 ![] bcast_S_S100000x1 y (ix2 r z) = y ix0 :=
  broadcastInDim_apply _ bcast_S_S100000x1 y (ix2 r z) ix0 (fun a => a.elim0)

/-- A column spread along the features is read at its row. -/
theorem wide_at (y : FVec Ideal S100000x1 .f32) :
    broadcastInDim S100000x128 ![0, 1] bcast_S100000x1_S100000x128_0_1 y (ix2 r q) = y (ix2 r (0 : Fin 1)) :=
  broadcastInDim_apply _ bcast_S100000x1_S100000x128_0_1 y (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- A vector of per-feature values set up as one row, then spread along the nodes, is read at the feature. -/
theorem feature_row_at (y : FVec Ideal S128 .f32) :
    broadcastInDim S100000x128 ![0, 1] bcast_S1x128_S100000x128_0_1 (broadcastInDim S1x128 ![1] bcast_S128_S1x128_1 y) (ix2 r q)
      = y (ix1 q) := by
  refine (broadcastInDim_apply _ bcast_S1x128_S100000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 y (ix2 (0 : Fin 1) q) (ix1 q) (fun a => match a with
    | ⟨0, _⟩ => by show q.val = if (128 : Nat) = 1 then 0 else q.val; rw [if_neg (by decide)])

/-- A host sum along the features from the zero initial value, at row `r`, is the sum of the row's 128 entries. -/
theorem row_sum_at (A : FVec Ideal S100000x128 .f32) :
    Host.reduceAdd A (constant (F := Ideal) S_ .f32 0x00000000#32) reducesTo_S100000x128_S100000_d1 h_S_ (ix1 r)
      = ∑ k : Fin 128, A (ix2 r k) := by
  simp only [Host.reduceAdd, Ideal.hostReduceAdd_def]
  rw [Ideal.hostReduceAdd_single reducesTo_S100000x128_S100000_d1 (by decide)]
  show Ideal.ofBits .f32 0x00000000#32 + _ = _
  rw [Ideal.ofBits_zero_f32, zero_add]
  refine Finset.sum_congr rfl fun k _ => ?_
  exact congrArg A (funext fun a => Fin.ext (by match a with | ⟨0, _⟩ => rfl | ⟨1, _⟩ => rfl))

end Reads

/-! ## The normalisation of an arbitrary array, as the reference's operations -/

/-- The column of row means: each row's sum divided by the feature count. -/
def colMean (A : FVec Ideal S100000x128 .f32) : FVec Ideal S100000x1 .f32 :=
  Host.divf (broadcastInDim S100000x1 ![0] bcast_S100000_S100000x1_0 (Host.reduceAdd A (constant (F := Ideal) S_ .f32 0x00000000#32) reducesTo_S100000x128_S100000_d1 h_S_)) (broadcastInDim S100000x1 ![] bcast_S_S100000x1 (constant (F := Ideal) S_ .f32 0x43000000#32))

/-- The deviations from the row means. -/
def dev (A : FVec Ideal S100000x128 .f32) : FVec Ideal S100000x128 .f32 :=
  subf A (broadcastInDim S100000x128 ![0, 1] bcast_S100000x1_S100000x128_0_1 (colMean A))

/-- The whole normalisation: deviations times the reciprocal root of the variance plus the offset, scaled and shifted. -/
def hostLN (A : FVec Ideal S100000x128 .f32) (g b : FVec Ideal S128 .f32) :
    FVec Ideal S100000x128 .f32 :=
  addf (mulf (mulf (dev A) (broadcastInDim S100000x128 ![0, 1] bcast_S100000x1_S100000x128_0_1 (Host.rsqrt (addf (colMean (mulf (dev A) (dev A))) (broadcastInDim S100000x1 ![] bcast_S_S100000x1 (constant (F := Ideal) S_ .f32 0x3727C5AC#32))))))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 b))

/-- The host's division and reciprocal root act entry by entry. -/
theorem hostDiv_at {s : Shape} (a b : FVec Ideal s .f32) (i : s.Idx) : Host.divf a b i = Ideal.div (a i) (b i) := rfl
theorem hostRsqrt_at {s : Shape} (a : FVec Ideal s .f32) (i : s.Idx) : Host.rsqrt a i = Ideal.rsqrt (a i) := rfl

theorem colMean_at (A : FVec Ideal S100000x128 .f32) (r : Fin Cert.Gcn.nodes) (z : Fin 1) :
    colMean A (ix2 r z) = Cert.Gcn.rowMean (fun k => A (ix2 r k)) := by
  unfold colMean
  rw [hostDiv_at, column_at, scalar_column_at, row_sum_at, constant_apply]
  rfl

theorem dev_at (A : FVec Ideal S100000x128 .f32) (r : Fin Cert.Gcn.nodes) (q : Fin 128) :
    dev A (ix2 r q) = A (ix2 r q) - Cert.Gcn.rowMean (fun k => A (ix2 r k)) := by
  unfold dev
  rw [subf_apply, wide_at, colMean_at]

/-- The squared deviations of row `r`, entry by entry. -/
theorem sq_dev_at (A : FVec Ideal S100000x128 .f32) (r : Fin Cert.Gcn.nodes) :
    (fun k : Fin 128 => mulf (dev A) (dev A) (ix2 r k))
      = fun k => (A (ix2 r k) - Cert.Gcn.rowMean fun j => A (ix2 r j)) * (A (ix2 r k) - Cert.Gcn.rowMean fun j => A (ix2 r j)) :=
  funext fun k => by rw [mulf_apply, dev_at]

/-- The reference's normalisation of any array is the row formula. -/
theorem hostLN_eq (A : FVec Ideal S100000x128 .f32) (g b : FVec Ideal S128 .f32) :
    hostLN A g b = Cert.Gcn.lnArr A (fun q => g (ix1 q)) (fun q => b (ix1 q)) := by
  refine Cert.Gcn.ext_ix2 fun r q => ?_
  rw [Cert.Gcn.lnArr_apply]
  unfold hostLN
  rw [addf_apply, mulf_apply, mulf_apply, feature_row_at, feature_row_at, wide_at, dev_at, hostRsqrt_at, addf_apply,
    colMean_at, scalar_column_at, constant_apply, sq_dev_at]
  rfl

/-! ## The two products -/

section Products
variable (r : Fin Cert.Gcn.nodes) (q k : Fin 128)

/-- A product's left operand at the shared coordinate `k`: row `r`, entry `k`. -/
theorem lhs30 : lidx_main_v30 (ix2 r q) k = ix2 r k := funext fun a => Fin.ext (by match a with | ⟨0, _⟩ => rfl | ⟨1, _⟩ => rfl)
/-- Its right operand: row `k`, column `q`. -/
theorem rhs30 : ridx_main_v30 (ix2 r q) k = ix2 k q := funext fun a => Fin.ext (by match a with | ⟨0, _⟩ => rfl | ⟨1, _⟩ => rfl)
theorem lhs47 : lidx_main_v47 (ix2 r q) k = ix2 r k := funext fun a => Fin.ext (by match a with | ⟨0, _⟩ => rfl | ⟨1, _⟩ => rfl)
theorem rhs47 : ridx_main_v47 (ix2 r q) k = ix2 k q := funext fun a => Fin.ext (by match a with | ⟨0, _⟩ => rfl | ⟨1, _⟩ => rfl)

end Products

/-- The reference's product stage is the product array. -/
theorem mm_eq (x0 : (⟨S100000x128, .f32⟩ : BufTy).Contents (Elt Ideal)) (x2 : (⟨S128x128, .f32⟩ : BufTy).Contents (Elt Ideal)) :
    val_main_v30 (F := Ideal) x0 x2 = Cert.Gcn.mmArr x0 x2 := by
  refine Cert.Gcn.ext_ix2 fun r q => ?_
  rw [val_main_v30_apply, Cert.Gcn.mmArr_apply]
  unfold Cert.Gcn.dotRow
  exact Finset.sum_congr rfl fun k _ => by rw [lhs30, rhs30]

/-- The second product stage, of the other node array against the same weight, likewise. -/
theorem mm2_eq (x1 : (⟨S100000x128, .f32⟩ : BufTy).Contents (Elt Ideal)) (x2 : (⟨S128x128, .f32⟩ : BufTy).Contents (Elt Ideal)) :
    val_main_v47 (F := Ideal) x1 x2 = Cert.Gcn.mmArr x1 x2 := by
  refine Cert.Gcn.ext_ix2 fun r q => ?_
  rw [val_main_v47_apply, Cert.Gcn.mmArr_apply]
  unfold Cert.Gcn.dotRow
  exact Finset.sum_congr rfl fun k _ => by rw [lhs47, rhs47]

/-! ## The reference's two results -/

/-- The stages from the aggregated array to the first result are the normalisation of that array. -/
theorem first_is (x0 : (⟨S100000x128, .f32⟩ : BufTy).Contents (Elt Ideal)) (x2 : (⟨S128x128, .f32⟩ : BufTy).Contents (Elt Ideal))
    (x3 x4 x5 : (⟨S128, .f32⟩ : BufTy).Contents (Elt Ideal)) (x8 : (⟨S2x1600000, .i32⟩ : BufTy).Contents (Elt Ideal)) :
    val_main_v71 (F := Ideal) x0 x2 x3 x4 x5 x8 = hostLN (val_main_v46 (F := Ideal) x0 x2 x3 x8) x4 x5 := rfl

/-- The stages from the second product to the second result are the normalisation of that product. -/
theorem second_is (x1 : (⟨S100000x128, .f32⟩ : BufTy).Contents (Elt Ideal)) (x2 : (⟨S128x128, .f32⟩ : BufTy).Contents (Elt Ideal))
    (x6 x7 : (⟨S128, .f32⟩ : BufTy).Contents (Elt Ideal)) :
    val_main_v95 (F := Ideal) x1 x2 x6 x7 = hostLN (val_main_v47 (F := Ideal) x1 x2) x6 x7 := rfl

/-- The reference's first result: the layer normalisation of the aggregated array's rows. -/
theorem out1_eq (x0 : (⟨S100000x128, .f32⟩ : BufTy).Contents (Elt Ideal)) (x2 : (⟨S128x128, .f32⟩ : BufTy).Contents (Elt Ideal))
    (x3 x4 x5 : (⟨S128, .f32⟩ : BufTy).Contents (Elt Ideal)) (x8 : (⟨S2x1600000, .i32⟩ : BufTy).Contents (Elt Ideal)) :
    val_main_v71 (F := Ideal) x0 x2 x3 x4 x5 x8
      = Cert.Gcn.lnArr (val_main_v46 (F := Ideal) x0 x2 x3 x8) (fun q => x4 (ix1 q)) (fun q => x5 (ix1 q)) :=
  (first_is x0 x2 x3 x4 x5 x8).trans (hostLN_eq _ x4 x5)

/-- The reference's second result: the layer normalisation of the rows of the second product. -/
theorem out2_eq (x1 : (⟨S100000x128, .f32⟩ : BufTy).Contents (Elt Ideal)) (x2 : (⟨S128x128, .f32⟩ : BufTy).Contents (Elt Ideal))
    (x6 x7 : (⟨S128, .f32⟩ : BufTy).Contents (Elt Ideal)) :
    val_main_v95 (F := Ideal) x1 x2 x6 x7
      = Cert.Gcn.lnArr (Cert.Gcn.mmArr x1 x2) (fun q => x6 (ix1 q)) (fun q => x7 (ix1 q)) :=
  (second_is x1 x2 x6 x7).trans ((hostLN_eq _ x6 x7).trans (by rw [mm2_eq]))

end Cert.ReferenceIdeal.RefSide

end
-- ==== Proof.lean ====
/-
  The certificate of a graph-convolution layer with two normalised branches, kernel against reference.

  Both programs return  LN(A, gamma1, beta1)  and  LN(x_ · W, gamma2, beta2),  LN the layer normalisation of each
  row over its 128 features and A the aggregated array: the rows of x · W gathered along the edges (self loops
  appended), scaled by the symmetric degree weights, scatter-added into their destinations, plus the bias.

  The kernel program computes x · W in a first region of 25 row blocks, runs the aggregation on the host with the
  very operations the reference uses, normalises A in a second region and computes and normalises x_ · W in a third.
  On the extended reals the narrowing of a product's operands is the identity, a product into a zero accumulator and
  the host's product are one sum, a lane sum and a host sum from zero are one sum, and the two normalisations are one
  expression with the same two literal words.  So no algebraic law is used and the precondition is never opened: the
  two sides are the same function of the arguments, entry by entry.

  The frames of the two kernel programs are the generated ones; the reference's is its run with the results dropped;
  the idealization ledger is empty.
-/
import proofs.«181837_j32315333935196_1_alg».proof.Defs
import proofs.«181837_j32315333935196_1_alg».proof.Proof.Gen.Kernel
import proofs.«181837_j32315333935196_1_alg».proof.Proof.Gen.Kernel.Skeleton
import proofs.«181837_j32315333935196_1_alg».proof.Proof.Gen.Kernel.Launch
import proofs.«181837_j32315333935196_1_alg».proof.Proof.Gen.Kernel.Points
import proofs.«181837_j32315333935196_1_alg».proof.Proof.Gen.Kernel.Frame
import proofs.«181837_j32315333935196_1_alg».proof.Proof.Gen.KernelIdeal
import proofs.«181837_j32315333935196_1_alg».proof.Proof.Gen.KernelIdeal.Skeleton
import proofs.«181837_j32315333935196_1_alg».proof.Proof.Gen.KernelIdeal.Launch
import proofs.«181837_j32315333935196_1_alg».proof.Proof.Gen.KernelIdeal.Points
import proofs.«181837_j32315333935196_1_alg».proof.Proof.Gen.KernelIdeal.Frame
import proofs.«181837_j32315333935196_1_alg».proof.Proof.Gen.ReferenceIdeal
import proofs.«181837_j32315333935196_1_alg».proof.Proof.Gen.Pre_finite_inputs
import proofs.«181837_j32315333935196_1_alg».proof.Proof.RunNamed
import proofs.«181837_j32315333935196_1_alg».proof.Proof.Fold
import proofs.«181837_j32315333935196_1_alg».proof.Proof.Blocks
import proofs.«181837_j32315333935196_1_alg».proof.Proof.Chain
import proofs.«181837_j32315333935196_1_alg».proof.Proof.RefSide
import Idealize.ShloMosaic.Lib.ValueLayout
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The kernel program's two results as functions of the launch memory -/

section Kernel

open Cert.KernelIdeal Cert.KernelIdeal.Gen

variable (m : (ℓ : Loc nD τ sig) → Buf (Elt Ideal) ℓ) (ρ : Dev nD → PrngReg)

/-- A [128] argument laid out as one row of 128, read at feature q, is the argument at q. -/
theorem row_of_arg (x : Vec Ideal S128 .f32) :
    (fun q : Fin 128 => shapeCast S1x128 x shapeCasts_S128_S1x128 (ix2 (0 : Fin 1) q)) = fun q => x (ix1 q) :=
  funext fun q => shapeCast_a_1a_apply x shapeCasts_S128_S1x128 (0 : Fin 1) q

/-- The second result: the layer normalisation of the rows of x_ · W with the second scale and shift. -/
theorem second_result (c : Dev nD) :
    W8 m ρ c (Proc.devRef .tc main_v52)
      = Cert.Gcn.lnArr (Cert.Gcn.mmArr (m ((c : Thread nD τ).loc main_arg1)) (m ((c : Thread nD τ).loc main_arg2)))
          (fun q => m ((c : Thread nD τ).loc main_arg6) (ix1 q)) (fun q => m ((c : Thread nD τ).loc main_arg7) (ix1 q)) := by
  rw [Fold.W8_v52 m ρ c, Blocks.region2 (V7 m ρ) c, Fold.V7_arg1 m ρ c, Fold.V7_arg2 m ρ c, Fold.V7_v50 m ρ c,
    Fold.V7_v51 m ρ c, row_of_arg, row_of_arg]

/-- The first result: the layer normalisation of the rows of the aggregated array with the first scale and shift,
    the aggregated array being the reference's own stage (the first region's product is the reference's product). -/
theorem first_result (c : Dev nD) :
    W8 m ρ c (Proc.devRef .tc main_v49)
      = Cert.Gcn.lnArr (Cert.ReferenceIdeal.ReadP.val_main_v46 (F := Ideal) (m ((c : Thread nD τ).loc main_arg0))
            (m ((c : Thread nD τ).loc main_arg2)) (m ((c : Thread nD τ).loc main_arg3)) (m ((c : Thread nD τ).loc main_arg8)))
          (fun q => m ((c : Thread nD τ).loc main_arg4) (ix1 q)) (fun q => m ((c : Thread nD τ).loc main_arg5) (ix1 q)) := by
  rw [Fold.W8_v49 m ρ c, Blocks.region1 (V5 m ρ) c, Cert.Chain.V5_v46 m ρ c, Blocks.region0 (V3 m ρ) c,
    Fold.V3_arg0 m ρ c, Fold.V3_arg2 m ρ c, Fold.V5_v47 m ρ c, Fold.V5_v48 m ρ c, row_of_arg, row_of_arg,
    Cert.Chain.aggOf_ref, Cert.ReferenceIdeal.RefSide.mm_eq]

end Kernel

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing: nothing to preserve. -/
theorem preserves : Cert.preserves_Kernel_KernelIdeal := trivial

/-- Both programs end with the two normalised arrays, the same functions of arguments that agree. -/
theorem algebraic : Cert.algebraic_KernelIdeal_ReferenceIdeal := by
  intro m ρ m' ρ' _ hagree
  refine ⟨fun c => Cert.Gcn.lnArr (Cert.ReferenceIdeal.ReadP.val_main_v46 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)))
        (fun q => (m ((c.tc : Thread Cert.KernelIdeal.nD Cert.KernelIdeal.τ).loc Cert.KernelIdeal.main_arg4)) (ix1 q)) (fun q => (m ((c.tc : Thread Cert.KernelIdeal.nD Cert.KernelIdeal.τ).loc Cert.KernelIdeal.main_arg5)) (ix1 q)),
      fun c => Cert.Gcn.lnArr (Cert.Gcn.mmArr (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (fun q => (m ((c.tc : Thread Cert.KernelIdeal.nD Cert.KernelIdeal.τ).loc Cert.KernelIdeal.main_arg6)) (ix1 q)) (fun q => (m ((c.tc : Thread Cert.KernelIdeal.nD Cert.KernelIdeal.τ).loc Cert.KernelIdeal.main_arg7)) (ix1 q)), ?_, ?_⟩
  · exact (θ_run Cert.KernelIdeal.defs _ _).mono
      (fun r h c => ⟨(h c).1.trans (first_result m ρ c), (h c).2.1.trans (second_result m ρ c), (h c).2.2⟩)
      (Cert.KernelIdeal.Named.run (F := Ideal) m ρ)
  · refine (θ_run Cert.ReferenceIdeal.defs _ _).mono (fun r h c => ⟨?_, ?_, (h c).2.2⟩)
      (Cert.ReferenceIdeal.ValueP.run (F := Ideal) m' ρ')
    · obtain ⟨a0, a1, a2, a3, a4, a5, a6, a7, a8⟩ := hagree c
      rw [(h c).1, Cert.ReferenceIdeal.ReadP.val_main_v71_eq, Cert.ReferenceIdeal.RefSide.out1_eq, a0, a2, a3, a4, a5, a8]
    · obtain ⟨a0, a1, a2, a3, a4, a5, a6, a7, a8⟩ := hagree c
      rw [(h c).2.1, Cert.ReferenceIdeal.ReadP.val_main_v95_eq, Cert.ReferenceIdeal.RefSide.out2_eq, a1, a2, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
